-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S1000000x64 : Shape := ⟨2, ![1000000, 64]⟩
abbrev S100000x64 : Shape := ⟨2, ![100000, 64]⟩
abbrev S1000000x8 : Shape := ⟨2, ![1000000, 8]⟩
abbrev S100000x8 : Shape := ⟨2, ![100000, 8]⟩
abbrev S16x8 : Shape := ⟨2, ![16, 8]⟩
abbrev S8 : Shape := ⟨1, ![8]⟩
abbrev S8x4 : Shape := ⟨2, ![8, 4]⟩
abbrev S4 : Shape := ⟨1, ![4]⟩
abbrev S68x1 : Shape := ⟨2, ![68, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1000000x8 : S_.BroadcastsInDim S1000000x8 (![] : Fin 0 → Fin S1000000x8.rank)
  reducesTo_S1000000x8_S_d0_1 : S1000000x8.ReducesTo [0, 1] S_
  bcast_S_S100000x8 : S_.BroadcastsInDim S100000x8 (![] : Fin 0 → Fin S100000x8.rank)
  reducesTo_S100000x8_S_d0_1 : S100000x8.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S68x1 : S_.BroadcastsInDim S68x1 (![] : Fin 0 → Fin S68x1.rank)
  reducesTo_S68x1_S_d0_1 : S68x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S4 .f32) (main_arg10 : FVec F S68x1 .f32) (main_arg11 : FVec F S1 .f32) (main_v33 : IVec S_ 1) : IVec S_ 1 :=
  let main_v34 : FVec F S4 .f32 := Host.absf main_arg9
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S68x1 .f32 := Host.absf main_arg10
  let main_cst_14 : FVec F S_ .f32 := constant S_ .f32 0x7F800000#32
  let main_v40 : FVec F S68x1 .f32 := broadcastInDim S68x1 ![] bcast_S_S68x1 main_cst_14
  let main_v41 : IVec S68x1 1 := cmpf .olt main_v39 main_v40
  let main_c_15 : IVec S_ 1 := constantI S_ 1 1#1
  let main_v42 : IVec S_ 1 := (fun x v => Host.reduce IntOp.andi x v reducesTo_S68x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S16x8 .f32) (main_arg7 : FVec F S8 .f32) (main_arg8 : FVec F S8x4 .f32) (main_arg9 : FVec F S4 .f32) (main_arg10 : FVec F S68x1 .f32) (main_arg11 : FVec F S1 .f32) (main_v13 : IVec S_ 1) (main_v16 : IVec S100000x8 1) : IVec S_ 1 :=
  let main_c_5 : IVec S_ 1 := constantI S_ 1 1#1
  let main_v17 : IVec S_ 1 := (fun x v => Host.reduce IntOp.andi x v reducesTo_S100000x8_S_d0_1 h_S_) main_v16 main_c_5
  let main_v18 : IVec S_ 1 := andi main_v13 main_v17
  let main_v19 : FVec F S16x8 .f32 := Host.absf main_arg6
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x4 .f32 := Host.absf main_arg8
  let main_cst_10 : FVec F S_ .f32 := constant S_ .f32 0x7F800000#32
  let main_v30 : FVec F S8x4 .f32 := broadcastInDim S8x4 ![] bcast_S_S8x4 main_cst_10
  let main_v31 : IVec S8x4 1 := cmpf .olt main_v29 main_v30
  let main_c_11 : IVec S_ 1 := constantI S_ 1 1#1
  let main_v32 : IVec S_ 1 := (fun x v => Host.reduce IntOp.andi x v reducesTo_S8x4_S_d0_1 h_S_) main_v31 main_c_11
  let main_v33 : IVec S_ 1 := andi main_v28 main_v32
  fn_part2 (F := F) main_arg9 main_arg10 main_arg11 main_v33

def fn {F : FTy → Type} [FloatOps F] (main_arg0 : IVec S16384 32) (main_arg1 : IVec S16384 32) (main_arg2 : FVec F S1000000x64 .f32) (main_arg3 : FVec F S100000x64 .f32) (main_arg4 : FVec F S1000000x8 .f32) (main_arg5 : FVec F S100000x8 .f32) (main_arg6 : FVec F S16x8 .f32) (main_arg7 : FVec F S8 .f32) (main_arg8 : FVec F S8x4 .f32) (main_arg9 : FVec F S4 .f32) (main_arg10 : FVec F S68x1 .f32) (main_arg11 : FVec F S1 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1000000x8 .f32 := Host.absf main_arg4
  let main_cst_2 : FVec F S_ .f32 := constant S_ .f32 0x7F800000#32
  let main_v10 : FVec F S1000000x8 .f32 := broadcastInDim S1000000x8 ![] bcast_S_S1000000x8 main_cst_2
  let main_v11 : IVec S1000000x8 1 := cmpf .olt main_v9 main_v10
  let main_c_3 : IVec S_ 1 := constantI S_ 1 1#1
  let main_v12 : IVec S_ 1 := (fun x v => Host.reduce IntOp.andi x v reducesTo_S1000000x8_S_d0_1 h_S_) main_v11 main_c_3
  let main_v13 : IVec S_ 1 := andi main_v8 main_v12
  let main_v14 : FVec F S100000x8 .f32 := Host.absf main_arg5
  let main_cst_4 : FVec F S_ .f32 := constant S_ .f32 0x7F800000#32
  let main_v15 : FVec F S100000x8 .f32 := broadcastInDim S100000x8 ![] bcast_S_S100000x8 main_cst_4
  let main_v16 : IVec S100000x8 1 := cmpf .olt main_v14 main_v15
  fn_part1 (F := F) main_arg6 main_arg7 main_arg8 main_arg9 main_arg10 main_arg11 main_v13 main_v16
-- ==== Kernel.lean ====
abbrev S16384 : Shape := ⟨1, ![16384]⟩
abbrev S1000000x64 : Shape := ⟨2, ![1000000, 64]⟩
abbrev S100000x64 : Shape := ⟨2, ![100000, 64]⟩
abbrev S1000000x8 : Shape := ⟨2, ![1000000, 8]⟩
abbrev S100000x8 : Shape := ⟨2, ![100000, 8]⟩
abbrev S16x8 : Shape := ⟨2, ![16, 8]⟩
abbrev S8 : Shape := ⟨1, ![8]⟩
abbrev S8x4 : Shape := ⟨2, ![8, 4]⟩
abbrev S4 : Shape := ⟨1, ![4]⟩
abbrev S68x1 : Shape := ⟨2, ![68, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x8 : Shape := ⟨2, ![16384, 8]⟩
abbrev S16384x16 : Shape := ⟨2, ![16384, 16]⟩
abbrev S1x68 : Shape := ⟨2, ![1, 68]⟩
abbrev S2048x64 : Shape := ⟨2, ![2048, 64]⟩
abbrev S2048x16 : Shape := ⟨2, ![2048, 16]⟩
abbrev S2048 : Shape := ⟨1, ![2048]⟩
abbrev S2048x8 : Shape := ⟨2, ![2048, 8]⟩
abbrev S1x8 : Shape := ⟨2, ![1, 8]⟩
abbrev S2048x4 : Shape := ⟨2, ![2048, 4]⟩
abbrev S1x4 : Shape := ⟨2, ![1, 4]⟩
abbrev S2048x68 : Shape := ⟨2, ![2048, 68]⟩
abbrev S2048x1 : Shape := ⟨2, ![2048, 1]⟩
abbrev S1x1 : Shape := ⟨2, ![1, 1]⟩

abbrev nBuf : Space → Nat
  | .hbm => 51
  | .vmem => 14
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S1000000x8, .f32⟩
  | .hbm, ⟨5, _⟩ => ⟨S100000x8, .f32⟩
  | .hbm, ⟨6, _⟩ => ⟨S16x8, .f32⟩
  | .hbm, ⟨7, _⟩ => ⟨S8, .f32⟩
  | .hbm, ⟨8, _⟩ => ⟨S8x4, .f32⟩
  | .hbm, ⟨9, _⟩ => ⟨S4, .f32⟩
  | .hbm, ⟨10, _⟩ => ⟨S68x1, .f32⟩
  | .hbm, ⟨11, _⟩ => ⟨S1, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x64, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x64, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384x8, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S16384x8, .f32⟩
  | .hbm, ⟨48, _⟩ => ⟨S16384x16, .f32⟩
  | .hbm, ⟨49, _⟩ => ⟨S1x68, .f32⟩
  | .hbm, ⟨50, _⟩ => ⟨S16384, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x16, .f32⟩
  | .local _ .vmem, ⟨5, _⟩ => ⟨S2048x16, .f32⟩
  | .local _ .vmem, ⟨6, _⟩ => ⟨S16x8, .f32⟩
  | .local _ .vmem, ⟨7, _⟩ => ⟨S8, .f32⟩
  | .local _ .vmem, ⟨8, _⟩ => ⟨S8x4, .f32⟩
  | .local _ .vmem, ⟨9, _⟩ => ⟨S4, .f32⟩
  | .local _ .vmem, ⟨10, _⟩ => ⟨S1x68, .f32⟩
  | .local _ .vmem, ⟨11, _⟩ => ⟨S1, .f32⟩
  | .local _ .vmem, ⟨12, _⟩ => ⟨S2048, .f32⟩
  | .local _ .vmem, ⟨13, _⟩ => ⟨S2048, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x68 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x8_S16384x8_S16384x16_d1 : Shape.Concatenates [S16384x8, S16384x8] S16384x16 1
  transposes_S68x1_S1x68_1_0 : S68x1.Transposes [1, 0] S1x68
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  bitsLt_bf16_f32 : FTy.bits .bf16 < FTy.bits .f32
  inb_S16x8_S16x8_0_0 : ∀ a, (![0, 0] : Fin 2 → Nat) a + S16x8.size a ≤ S16x8.size a
  h_S16x8 : 0 < S16x8.numel
  inb_S8_S8_0 : ∀ a, (![0] : Fin 1 → Nat) a + S8.size a ≤ S8.size a
  h_S8 : 0 < S8.numel
  shapeCasts_S8_S1x8 : S8.ShapeCasts S1x8
  broadcasts_S1x8_S2048x8 : S1x8.Broadcasts S2048x8
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  shapeCasts_S4_S1x4 : S4.ShapeCasts S1x4
  broadcasts_S1x4_S2048x4 : S1x4.Broadcasts S2048x4
  concatenates_S2048x64_S2048x4_S2048x68_d1 : Shape.Concatenates [S2048x64, S2048x4] S2048x68 1
  inb_S1x68_S1x68_0_0 : ∀ a, (![0, 0] : Fin 2 → Nat) a + S1x68.size a ≤ S1x68.size a
  h_S1x68 : 0 < S1x68.numel
  shapeCasts_S1x68_S1x68 : S1x68.ShapeCasts S1x68
  broadcasts_S1x68_S2048x68 : S1x68.Broadcasts S2048x68
  reduces_S2048x68_S2048 : S2048x68.Reduces [1] S2048
  shapeCasts_S2048_S2048x1 : S2048.ShapeCasts S2048x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  shapeCasts_S2048x1_S2048 : S2048x1.ShapeCasts S2048
  inb_S2048_S2048_0 : ∀ a, (![0] : Fin 1 → Nat) a + S2048.size a ≤ S2048.size a
  h_S2048 : 0 < S2048.numel
  gather_S1000000x64_S16384x1_S16384x64_1_0_n_n_0_1_164_wf : GatherDims.WF S1000000x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]
  gather_S1000000x8_S16384x1_S16384x8_1_0_n_n_0_1_18_wf : GatherDims.WF S1000000x8 S16384x1 S16384x8 [1] [0] [] [0] [] 1 ![1, 8]
  gather_S100000x8_S16384x1_S16384x8_1_0_n_n_0_1_18_wf : GatherDims.WF S100000x8 S16384x1 S16384x8 [1] [0] [] [0] [] 1 ![1, 8]
  dot_S2048x16_S16x8_S2048x8_1_0_0_1_n_n_wf : DotDims.WF S2048x16 S16x8 S2048x8 [1] [0] [0] [1] [] []
  dot_S2048x8_S8x4_S2048x4_1_0_0_1_n_n_wf : DotDims.WF S2048x8 S8x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S16384x16.size a
  hwx0_2 : ∀ i : grid0.Coords, EltTy.bits .f32 = 32 ∨ (Rect.block (s := S16384x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S16x8.size a
  hwx0_3 : ∀ i : grid0.Coords, EltTy.bits .f32 = 32 ∨ (Rect.block (s := S16x8) S16x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x4.size a ≤ S8x4.size a
  hwx0_5 : ∀ i : grid0.Coords, EltTy.bits .f32 = 32 ∨ (Rect.block (s := S8x4) S8x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x68.size a ≤ S1x68.size a
  hwx0_7 : ∀ i : grid0.Coords, EltTy.bits .f32 = 32 ∨ (Rect.block (s := S1x68) S1x68.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S16384.size a
  hwx0_9 : ∀ i : grid0.Coords, EltTy.bits .f32 = 32 ∨ (Rect.block (s := S16384) S2048.size (cc0_transform_9 i) (hinb0_9 i)).WholeWords (EltTy.packing .f32)

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S1000000x8_S16384x1_S16384x8_1_0_n_n_0_1_18 : GatherDims S1000000x8 S16384x1 S16384x8 where
  offsetDims := [1]
  collapsedSliceDims := [0]
  operandBatchingDims := []
  startIndicesBatchingDims := []
  startIndexMap := [0]
  indexVectorDim := 1
  sliceSizes := ![1, 8]
  wf := gather_S1000000x8_S16384x1_S16384x8_1_0_n_n_0_1_18_wf
def gather_S100000x8_S16384x1_S16384x8_1_0_n_n_0_1_18 : GatherDims S100000x8 S16384x1 S16384x8 where
  offsetDims := [1]
  collapsedSliceDims := [0]
  operandBatchingDims := []
  startIndicesBatchingDims := []
  startIndexMap := [0]
  indexVectorDim := 1
  sliceSizes := ![1, 8]
  wf := gather_S100000x8_S16384x1_S16384x8_1_0_n_n_0_1_18_wf
def dot_S2048x16_S16x8_S2048x8_1_0_0_1_n_n : DotDims S2048x16 S16x8 S2048x8 where
  lhsContracting := [1]
  rhsContracting := [0]
  lhsNonContracting := [0]
  rhsNonContracting := [1]
  lhsBatch := []
  rhsBatch := []
  wf := dot_S2048x16_S16x8_S2048x8_1_0_0_1_n_n_wf
def dot_S2048x8_S8x4_S2048x4_1_0_0_1_n_n : DotDims S2048x8 S8x4 S2048x4 where
  lhsContracting := [1]
  rhsContracting := [0]
  lhsNonContracting := [0]
  rhsNonContracting := [1]
  lhsBatch := []
  rhsBatch := []
  wf := dot_S2048x8_S8x4_S2048x4_1_0_0_1_n_n_wf

abbrev win0_0 : Pipeline.Window sig grid0 :=
  Pipeline.Window.ofSpec (Memref.whole main_v6) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S16x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S8x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x68.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384 : Shape := ⟨1, ![16384]⟩
abbrev S1000000x64 : Shape := ⟨2, ![1000000, 64]⟩
abbrev S100000x64 : Shape := ⟨2, ![100000, 64]⟩
abbrev S1000000x8 : Shape := ⟨2, ![1000000, 8]⟩
abbrev S100000x8 : Shape := ⟨2, ![100000, 8]⟩
abbrev S16x8 : Shape := ⟨2, ![16, 8]⟩
abbrev S8 : Shape := ⟨1, ![8]⟩
abbrev S8x4 : Shape := ⟨2, ![8, 4]⟩
abbrev S4 : Shape := ⟨1, ![4]⟩
abbrev S68x1 : Shape := ⟨2, ![68, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x8 : Shape := ⟨2, ![16384, 8]⟩
abbrev S16384x16 : Shape := ⟨2, ![16384, 16]⟩
abbrev S1x8 : Shape := ⟨2, ![1, 8]⟩
abbrev S16384x4 : Shape := ⟨2, ![16384, 4]⟩
abbrev S1x4 : Shape := ⟨2, ![1, 4]⟩
abbrev S16384x68 : Shape := ⟨2, ![16384, 68]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S1000000x8, .f32⟩
  | .hbm, ⟨5, _⟩ => ⟨S100000x8, .f32⟩
  | .hbm, ⟨6, _⟩ => ⟨S16x8, .f32⟩
  | .hbm, ⟨7, _⟩ => ⟨S8, .f32⟩
  | .hbm, ⟨8, _⟩ => ⟨S8x4, .f32⟩
  | .hbm, ⟨9, _⟩ => ⟨S4, .f32⟩
  | .hbm, ⟨10, _⟩ => ⟨S68x1, .f32⟩
  | .hbm, ⟨11, _⟩ => ⟨S1, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x64, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x64, .f32⟩
  | .hbm, ⟨30, _⟩ => ⟨S16384x64, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x8, .f32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S16384x8, .f32⟩
  | .hbm, ⟨49, _⟩ => ⟨S16384x16, .f32⟩
  | .hbm, ⟨50, _⟩ => ⟨S16384x8, .f32⟩
  | .hbm, ⟨51, _⟩ => ⟨S1x8, .f32⟩
  | .hbm, ⟨52, _⟩ => ⟨S16384x8, .f32⟩
  | .hbm, ⟨53, _⟩ => ⟨S16384x8, .f32⟩
  | .hbm, ⟨54, _⟩ => ⟨S_, .f32⟩
  | .hbm, ⟨55, _⟩ => ⟨S16384x8, .f32⟩
  | .hbm, ⟨56, _⟩ => ⟨S16384x8, .f32⟩
  | .hbm, ⟨57, _⟩ => ⟨S16384x4, .f32⟩
  | .hbm, ⟨58, _⟩ => ⟨S1x4, .f32⟩
  | .hbm, ⟨59, _⟩ => ⟨S16384x4, .f32⟩
  | .hbm, ⟨60, _⟩ => ⟨S16384x4, .f32⟩
  | .hbm, ⟨61, _⟩ => ⟨S_, .f32⟩
  | .hbm, ⟨62, _⟩ => ⟨S16384x4, .f32⟩
  | .hbm, ⟨63, _⟩ => ⟨S16384x4, .f32⟩
  | .hbm, ⟨64, _⟩ => ⟨S16384x68, .f32⟩
  | .hbm, ⟨65, _⟩ => ⟨S16384x1, .f32⟩
  | .hbm, ⟨66, _⟩ => ⟨S1x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S_, .f32⟩
  | .hbm, ⟨82, _⟩ => ⟨S16384, .f32⟩
  | .hbm, ⟨83, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_cst : Ref sig .tc := ⟨.hbm, 54, rfl⟩
abbrev main_call0_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x8_S16384x8_S16384x16_d1 : Shape.Concatenates [S16384x8, S16384x8] S16384x16 1
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  bcast_S_S16384x4 : S_.BroadcastsInDim S16384x4 (![] : Fin 0 → Fin S16384x4.rank)
  concatenates_S16384x64_S16384x4_S16384x68_d1 : Shape.Concatenates [S16384x64, S16384x4] S16384x68 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  shapeCasts_S16384x1_S16384 : S16384x1.ShapeCasts S16384
  gather_S1000000x64_S16384x1_S16384x64_1_0_n_n_0_1_164_wf : GatherDims.WF S1000000x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]
  gather_S1000000x8_S16384x1_S16384x8_1_0_n_n_0_1_18_wf : GatherDims.WF S1000000x8 S16384x1 S16384x8 [1] [0] [] [0] [] 1 ![1, 8]
  gather_S100000x8_S16384x1_S16384x8_1_0_n_n_0_1_18_wf : GatherDims.WF S100000x8 S16384x1 S16384x8 [1] [0] [] [0] [] 1 ![1, 8]
  dot_S16384x16_S16x8_S16384x8_1_0_0_1_n_n_wf : DotDims.WF S16384x16 S16x8 S16384x8 [1] [0] [0] [1] [] []
  dot_S16384x8_S8x4_S16384x4_1_0_0_1_n_n_wf : DotDims.WF S16384x8 S8x4 S16384x4 [1] [0] [0] [1] [] []
  dot_S16384x68_S68x1_S16384x1_1_0_0_1_n_n_wf : DotDims.WF S16384x68 S68x1 S16384x1 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S1000000x8_S16384x1_S16384x8_1_0_n_n_0_1_18 : GatherDims S1000000x8 S16384x1 S16384x8 where
  offsetDims := [1]
  collapsedSliceDims := [0]
  operandBatchingDims := []
  startIndicesBatchingDims := []
  startIndexMap := [0]
  indexVectorDim := 1
  sliceSizes := ![1, 8]
  wf := gather_S1000000x8_S16384x1_S16384x8_1_0_n_n_0_1_18_wf
def gather_S100000x8_S16384x1_S16384x8_1_0_n_n_0_1_18 : GatherDims S100000x8 S16384x1 S16384x8 where
  offsetDims := [1]
  collapsedSliceDims := [0]
  operandBatchingDims := []
  startIndicesBatchingDims := []
  startIndexMap := [0]
  indexVectorDim := 1
  sliceSizes := ![1, 8]
  wf := gather_S100000x8_S16384x1_S16384x8_1_0_n_n_0_1_18_wf
def dot_S16384x16_S16x8_S16384x8_1_0_0_1_n_n : DotDims S16384x16 S16x8 S16384x8 where
  lhsContracting := [1]
  rhsContracting := [0]
  lhsNonContracting := [0]
  rhsNonContracting := [1]
  lhsBatch := []
  rhsBatch := []
  wf := dot_S16384x16_S16x8_S16384x8_1_0_0_1_n_n_wf
def dot_S16384x8_S8x4_S16384x4_1_0_0_1_n_n : DotDims S16384x8 S8x4 S16384x4 where
  lhsContracting := [1]
  rhsContracting := [0]
  lhsNonContracting := [0]
  rhsNonContracting := [1]
  lhsBatch := []
  rhsBatch := []
  wf := dot_S16384x8_S8x4_S16384x4_1_0_0_1_n_n_wf
def dot_S16384x68_S68x1_S16384x1_1_0_0_1_n_n : DotDims S16384x68 S68x1 S16384x1 where
  lhsContracting := [1]
  rhsContracting := [0]
  lhsNonContracting := [0]
  rhsNonContracting := [1]
  lhsBatch := []
  rhsBatch := []
  wf := dot_S16384x68_S68x1_S16384x1_1_0_0_1_n_n_wf

class Facts : Prop extends Facts₀ where

variable [Facts]
-- ==== Proof.RowScore.lean ====
/-
  One row of the two-branch recommender score, on the extended reals.

  For one (user, item) pair the data are two gathered 64-vectors g and g' (the factorisation branch), a gathered
  16-vector x (the perceptron branch), the two dense layers (W1, b1) : 16 -> 8 and (W2, b2) : 8 -> 4, the output
  weights w in R^68 and the output bias beta.  The score is

      4 * sigma( sum_k c_k * w_k + beta ) + 1,    c = (g .* g') ++ relu(W2^T relu(W1^T x + b1) + b2),

  with sigma(z) = 1 / (1 + e^(-z)).  Each float literal is kept as its binary word: both programs carry the same
  words, and the only word ever evaluated is that of 1 inside sigma (so that the quotient is the logistic function).
-/
import Idealize.ShloMosaic.PureOps.Ideal
import Idealize.ShloMosaic.PureOps.IdealRules
import Idealize.ShloMosaic.Lib.ValueIdx

noncomputable section

namespace Cert.RowScore

open Idealize.ShloMosaic Idealize.ShloMosaic.ValueIdx

/-- A dense layer followed by rectification, read at output unit `j`: `max (sum_q x_q * W_(q,j) + b_j) 0`. -/
def dense {n k : ℕ} (x : Fin n → EReal) (W : (⟨2, ![n, k]⟩ : Shape).Idx → EReal)
    (b : (⟨1, ![k]⟩ : Shape).Idx → EReal) (j : Fin k) : EReal :=
  max ((∑ q : Fin n, x q * W (ix2 q j)) + b (ix1 j)) (Ideal.ofBits .f32 0x00000000#32)

/-- The 68-vector fed to the output unit: 64 entries `p` (the factorisation branch) followed by the perceptron's
    4 outputs `h`. -/
def joined (p : Fin 64 → EReal) (h : Fin 4 → EReal) (k : Fin 68) : EReal :=
  if hk : k.val < 64 then p ⟨k.val, hk⟩ else h ⟨k.val - 64, by have := k.isLt; omega⟩

theorem joined_left (p : Fin 64 → EReal) (h : Fin 4 → EReal) (k : Fin 68) (hk : k.val < 64) :
    joined p h k = p ⟨k.val, hk⟩ := by
  rw [joined, dif_pos hk]

theorem joined_right (p : Fin 64 → EReal) (h : Fin 4 → EReal) (k : Fin 68) (hk : ¬ k.val < 64) :
    joined p h k = h ⟨k.val - 64, by have := k.isLt; omega⟩ := by
  rw [joined, dif_neg hk]

/-- The output unit's pre-activation: `sum_k c_k * w_k + beta`. -/
def logit (c w : Fin 68 → EReal) (β : EReal) : EReal := (∑ k : Fin 68, c k * w k) + β

/-- `4 * sigma(z) + 1`, with sigma spelt as the quotient `1 / (1 + e^(-z))` over the literals' words. -/
def rating (z : EReal) : EReal :=
  Ideal.div (Ideal.ofBits .f32 0x3F800000#32) (Ideal.ofBits .f32 0x3F800000#32 + Ideal.exp (-z))
      * Ideal.ofBits .f32 0x40800000#32
    + Ideal.ofBits .f32 0x3F800000#32

/-- The word `0x3F800000` denotes 1. -/
theorem one_word : Ideal.ofBits .f32 0x3F800000#32 = 1 := IdealRules.sign_bit.ideal_onePat .f32

/-- The quotient inside `rating` is the logistic function. -/
theorem rating_eq (z : EReal) :
    rating z = Ideal.logistic z * Ideal.ofBits .f32 0x40800000#32 + Ideal.ofBits .f32 0x3F800000#32 := by
  unfold rating Ideal.logistic
  rw [one_word]

/-- The whole row: the two branches joined, the output unit, the squashing to (1, 5). -/
def score (g g' : Fin 64 → EReal) (x : Fin 16 → EReal)
    (W1 : (⟨2, ![16, 8]⟩ : Shape).Idx → EReal) (b1 : (⟨1, ![8]⟩ : Shape).Idx → EReal)
    (W2 : (⟨2, ![8, 4]⟩ : Shape).Idx → EReal) (b2 : (⟨1, ![4]⟩ : Shape).Idx → EReal)
    (w : Fin 68 → EReal) (β : EReal) : EReal :=
  rating (logit (joined (fun k => g k * g' k) (dense (dense x W1 b1) W2 b2)) w β)

end Cert.RowScore

end
-- ==== Proof.KernelProducts.lean ====
/-
  The kernel body's two matrix products at an entry, on the extended reals.

  Both products contract the one shared axis into a zero accumulator, so entry (p, j) is the sum over k of the left
  operand at (p, k) times the right operand at (k, j): row p of the left operand against column j of the right.  The sum
  over the product's contraction index is carried to a sum over k in Fin K by the bijection between the two.
-/
import proofs.«428387_j80693845557568_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelProducts

open Idealize.ShloMosaic Idealize.ShloMosaic.ValueIdx Cert.KernelIdeal Cert.KernelIdeal.Gen

/-! ## The two matrix products at an entry -/

theorem lhs1_0 (i : S2048x8.Idx) (q : dot_S2048x16_S16x8_S2048x8_1_0_0_1_n_n.contr.Idx) :
    (dot_S2048x16_S16x8_S2048x8_1_0_0_1_n_n.lhsIdx i q 0).val = (i 0).val := by
  unfold DotDims.lhsIdx
  rw [dif_neg (show ¬(0 : Fin S2048x16.rank) ∈ dot_S2048x16_S16x8_S2048x8_1_0_0_1_n_n.lhsBatch by decide), dif_pos (show (0 : Fin S2048x16.rank) ∈ dot_S2048x16_S16x8_S2048x8_1_0_0_1_n_n.lhsNonContracting by decide)]
  rfl
theorem lhs1_1 (i : S2048x8.Idx) (q : dot_S2048x16_S16x8_S2048x8_1_0_0_1_n_n.contr.Idx) :
    (dot_S2048x16_S16x8_S2048x8_1_0_0_1_n_n.lhsIdx i q 1).val = (q ⟨0, by decide⟩).val :=
  dot_S2048x16_S16x8_S2048x8_1_0_0_1_n_n.lhsIdx_val_of_single rfl i q
theorem rhs1_0 (i : S2048x8.Idx) (q : dot_S2048x16_S16x8_S2048x8_1_0_0_1_n_n.contr.Idx) :
    (dot_S2048x16_S16x8_S2048x8_1_0_0_1_n_n.rhsIdx i q 0).val = (q ⟨0, by decide⟩).val :=
  dot_S2048x16_S16x8_S2048x8_1_0_0_1_n_n.rhsIdx_val_of_single rfl i q
theorem rhs1_1 (i : S2048x8.Idx) (q : dot_S2048x16_S16x8_S2048x8_1_0_0_1_n_n.contr.Idx) :
    (dot_S2048x16_S16x8_S2048x8_1_0_0_1_n_n.rhsIdx i q 1).val = (i 1).val := by
  unfold DotDims.rhsIdx
  rw [dif_neg (show ¬(1 : Fin S16x8.rank) ∈ dot_S2048x16_S16x8_S2048x8_1_0_0_1_n_n.rhsBatch by decide), dif_pos (show (1 : Fin S16x8.rank) ∈ dot_S2048x16_S16x8_S2048x8_1_0_0_1_n_n.rhsNonContracting by decide)]
  rfl

/-- Entry `(p, j)` of the first product into a zero accumulator: row `p` of the left operand against column `j` of the right. -/
theorem product1_apply (X : FVec Ideal S2048x16 .bf16) (W : FVec Ideal S16x8 .bf16) (p : Fin 2048) (j : Fin 8) :
    matmul dot_S2048x16_S16x8_S2048x8_1_0_0_1_n_n none X W (constant S2048x8 .f32 0x00000000#32) (ix2 p j)
      = ∑ k : Fin 16, X (ix2 p k) * W (ix2 k j) := by
  simp only [matmul]
  rw [Ideal.matmul_constant_zero_apply, ← Equiv.sum_comp (ValueIdx.contrEquiv1 dot_S2048x16_S16x8_S2048x8_1_0_0_1_n_n 16 rfl rfl).symm]
  refine Finset.sum_congr rfl fun k _ => ?_
  have hk := ValueIdx.contrEquiv1_symm_val dot_S2048x16_S16x8_S2048x8_1_0_0_1_n_n 16 rfl rfl k
  have el : dot_S2048x16_S16x8_S2048x8_1_0_0_1_n_n.lhsIdx (ix2 p j) ((ValueIdx.contrEquiv1 dot_S2048x16_S16x8_S2048x8_1_0_0_1_n_n 16 rfl rfl).symm k) = ix2 p k := funext fun a => Fin.ext (by
    match a with
    | ⟨0, _⟩ => exact lhs1_0 _ _
    | ⟨1, _⟩ => exact (lhs1_1 _ _).trans hk)
  have er : dot_S2048x16_S16x8_S2048x8_1_0_0_1_n_n.rhsIdx (ix2 p j) ((ValueIdx.contrEquiv1 dot_S2048x16_S16x8_S2048x8_1_0_0_1_n_n 16 rfl rfl).symm k) = ix2 k j := funext fun a => Fin.ext (by
    match a with
    | ⟨0, _⟩ => exact (rhs1_0 _ _).trans hk
    | ⟨1, _⟩ => exact rhs1_1 _ _)
  rw [el, er]

theorem lhs2_0 (i : S2048x4.Idx) (q : dot_S2048x8_S8x4_S2048x4_1_0_0_1_n_n.contr.Idx) :
    (dot_S2048x8_S8x4_S2048x4_1_0_0_1_n_n.lhsIdx i q 0).val = (i 0).val := by
  unfold DotDims.lhsIdx
  rw [dif_neg (show ¬(0 : Fin S2048x8.rank) ∈ dot_S2048x8_S8x4_S2048x4_1_0_0_1_n_n.lhsBatch by decide), dif_pos (show (0 : Fin S2048x8.rank) ∈ dot_S2048x8_S8x4_S2048x4_1_0_0_1_n_n.lhsNonContracting by decide)]
  rfl
theorem lhs2_1 (i : S2048x4.Idx) (q : dot_S2048x8_S8x4_S2048x4_1_0_0_1_n_n.contr.Idx) :
    (dot_S2048x8_S8x4_S2048x4_1_0_0_1_n_n.lhsIdx i q 1).val = (q ⟨0, by decide⟩).val :=
  dot_S2048x8_S8x4_S2048x4_1_0_0_1_n_n.lhsIdx_val_of_single rfl i q
theorem rhs2_0 (i : S2048x4.Idx) (q : dot_S2048x8_S8x4_S2048x4_1_0_0_1_n_n.contr.Idx) :
    (dot_S2048x8_S8x4_S2048x4_1_0_0_1_n_n.rhsIdx i q 0).val = (q ⟨0, by decide⟩).val :=
  dot_S2048x8_S8x4_S2048x4_1_0_0_1_n_n.rhsIdx_val_of_single rfl i q
theorem rhs2_1 (i : S2048x4.Idx) (q : dot_S2048x8_S8x4_S2048x4_1_0_0_1_n_n.contr.Idx) :
    (dot_S2048x8_S8x4_S2048x4_1_0_0_1_n_n.rhsIdx i q 1).val = (i 1).val := by
  unfold DotDims.rhsIdx
  rw [dif_neg (show ¬(1 : Fin S8x4.rank) ∈ dot_S2048x8_S8x4_S2048x4_1_0_0_1_n_n.rhsBatch by decide), dif_pos (show (1 : Fin S8x4.rank) ∈ dot_S2048x8_S8x4_S2048x4_1_0_0_1_n_n.rhsNonContracting by decide)]
  rfl

/-- Entry `(p, j)` of the second product into a zero accumulator. -/
theorem product2_apply (X : FVec Ideal S2048x8 .bf16) (W : FVec Ideal S8x4 .bf16) (p : Fin 2048) (j : Fin 4) :
    matmul dot_S2048x8_S8x4_S2048x4_1_0_0_1_n_n none X W (constant S2048x4 .f32 0x00000000#32) (ix2 p j)
      = ∑ k : Fin 8, X (ix2 p k) * W (ix2 k j) := by
  simp only [matmul]
  rw [Ideal.matmul_constant_zero_apply, ← Equiv.sum_comp (ValueIdx.contrEquiv1 dot_S2048x8_S8x4_S2048x4_1_0_0_1_n_n 8 rfl rfl).symm]
  refine Finset.sum_congr rfl fun k _ => ?_
  have hk := ValueIdx.contrEquiv1_symm_val dot_S2048x8_S8x4_S2048x4_1_0_0_1_n_n 8 rfl rfl k
  have el : dot_S2048x8_S8x4_S2048x4_1_0_0_1_n_n.lhsIdx (ix2 p j) ((ValueIdx.contrEquiv1 dot_S2048x8_S8x4_S2048x4_1_0_0_1_n_n 8 rfl rfl).symm k) = ix2 p k := funext fun a => Fin.ext (by
    match a with
    | ⟨0, _⟩ => exact lhs2_0 _ _
    | ⟨1, _⟩ => exact (lhs2_1 _ _).trans hk)
  have er : dot_S2048x8_S8x4_S2048x4_1_0_0_1_n_n.rhsIdx (ix2 p j) ((ValueIdx.contrEquiv1 dot_S2048x8_S8x4_S2048x4_1_0_0_1_n_n 8 rfl rfl).symm k) = ix2 k j := funext fun a => Fin.ext (by
    match a with
    | ⟨0, _⟩ => exact (rhs2_0 _ _).trans hk
    | ⟨1, _⟩ => exact rhs2_1 _ _)
  rw [el, er]

end Cert.KernelProducts

end
-- ==== Proof.KernelRow.lean ====
/-
  The kernel body's result at one row of a block, on the extended reals.

  The body's arithmetic is one pure term of its nine loaded blocks.  Every operation in it acts row by row: the two
  matrix products contract over a row of the left operand, the biases and the output weights are one row broadcast
  over all rows, the concatenation joins along the row, and the lane reduction sums along the row.  So the value at row
  `p` is a function of row `p` of the three row-blocked operands and of the small operands whole, and that function is
  `RowScore`'s: the product of the two 64-rows joined with the two dense layers of the 16-row, summed against the output
  weights, plus the output bias, through the logistic function.  (The changes of float format are the identity here.)
-/
import proofs.«428387_j80693845557568_3_alg».proof.Proof.Gen.KernelIdeal.Skeleton
import proofs.«428387_j80693845557568_3_alg».proof.Proof.RowScore
import proofs.«428387_j80693845557568_3_alg».proof.Proof.KernelProducts
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Idealize.ShloMosaic Idealize.ShloMosaic.ValueIdx Cert.KernelIdeal Cert.KernelIdeal.Gen Cert.RowScore Cert.KernelProducts

section Terms
variable {F : FTy → Type} [FloatOps F]

/-- The first dense layer as the body spells it: the product into a zero accumulator, the bias row broadcast over the
    rows, the maximum with zero. -/
def layer1 (X : FVec F S2048x16 .f32) (W : Vec F S16x8 .f32) (b : Vec F S8 .f32) : FVec F S2048x8 .f32 :=
  maximumf (addf (matmul dot_S2048x16_S16x8_S2048x8_1_0_0_1_n_n none (truncf .bf16 X bitsLt_bf16_f32) (truncf .bf16 W bitsLt_bf16_f32) (constant S2048x8 .f32 0x00000000#32))
      (broadcastTo S2048x8 (shapeCast S1x8 b shapeCasts_S8_S1x8) broadcasts_S1x8_S2048x8))
    (broadcast S2048x8 (Scalar.ofBits .f32 0x00000000#32))

/-- The second dense layer, likewise. -/
def layer2 (X : FVec F S2048x8 .f32) (W : Vec F S8x4 .f32) (b : Vec F S4 .f32) : FVec F S2048x4 .f32 :=
  maximumf (addf (matmul dot_S2048x8_S8x4_S2048x4_1_0_0_1_n_n none (truncf .bf16 X bitsLt_bf16_f32) (truncf .bf16 W bitsLt_bf16_f32) (constant S2048x4 .f32 0x00000000#32))
      (broadcastTo S2048x4 (shapeCast S1x4 b shapeCasts_S4_S1x4) broadcasts_S1x4_S2048x4))
    (broadcast S2048x4 (Scalar.ofBits .f32 0x00000000#32))

/-- The two branches joined along the row. -/
def joinedBlock (G : FVec F S2048x64 .f32) (H : FVec F S2048x4 .f32) : FVec F S2048x68 .f32 :=
  concatenate S2048x68 1 [⟨S2048x64, G⟩, ⟨S2048x4, H⟩] concatenates_S2048x64_S2048x4_S2048x68_d1

/-- The output unit before squashing: each row times the weight row, summed along the row, plus the bias. -/
def logitBlock (C : FVec F S2048x68 .f32) (w : Vec F S1x68 .f32) (β : Vec F S1 .f32) : FVec F S2048x1 .f32 :=
  addf (shapeCast S2048x1 (multiReduction .add [1] S2048 (mulf C (broadcastTo S2048x68 (shapeCast S1x68 w shapeCasts_S1x68_S1x68) broadcasts_S1x68_S2048x68)) 0x00000000#32 reduces_S2048x68_S2048 (.inl rfl) rfl) shapeCasts_S2048_S2048x1)
    (broadcastTo S2048x1 (shapeCast S1x1 β shapeCasts_S1_S1x1) broadcasts_S1x1_S2048x1)

/-- The body's payload up to the logistic function is these four pieces composed. -/
theorem pay2_eq (P0 P1 : Vec F S2048x64 .f32) (P2 : Vec F S2048x16 .f32) (P3 : Vec F S16x8 .f32) (P4 : Vec F S8 .f32)
    (P5 : Vec F S8x4 .f32) (P6 : Vec F S4 .f32) (P7 : Vec F S1x68 .f32) (P8 : Vec F S1 .f32) :
    k0_pay2 P0 P1 P2 P3 P4 P5 P6 P7 P8
      = logistic (logitBlock (joinedBlock (mulf (shapeCast S2048x64 P0 shapeCasts_S2048x64_S2048x64) (shapeCast S2048x64 P1 shapeCasts_S2048x64_S2048x64))
          (layer2 (layer1 (shapeCast S2048x16 P2 shapeCasts_S2048x16_S2048x16) P3 P4) P5 P6)) P7 P8) := rfl

end Terms

/-! ## Each piece at a row -/

theorem layer1_row (X : FVec Ideal S2048x16 .f32) (W : FVec Ideal S16x8 .f32) (b : FVec Ideal S8 .f32) (p : Fin 2048) (j : Fin 8) :
    layer1 (F := Ideal) X W b (ix2 p j) = dense (fun k => X (ix2 p k)) W b j := by
  unfold layer1 dense
  rw [maximumf_apply, addf_apply, product1_apply, broadcastTo_1b_ab_apply, shapeCast_a_1a_apply, broadcast_apply]
  rfl

theorem layer2_row (X : FVec Ideal S2048x8 .f32) (W : FVec Ideal S8x4 .f32) (b : FVec Ideal S4 .f32) (p : Fin 2048) (j : Fin 4) :
    layer2 (F := Ideal) X W b (ix2 p j) = dense (fun k => X (ix2 p k)) W b j := by
  unfold layer2 dense
  rw [maximumf_apply, addf_apply, product2_apply, broadcastTo_1b_ab_apply, shapeCast_a_1a_apply, broadcast_apply]
  rfl

theorem joinedBlock_row (G : FVec Ideal S2048x64 .f32) (H : FVec Ideal S2048x4 .f32) (p : Fin 2048) (k : Fin 68) :
    joinedBlock (F := Ideal) G H (ix2 p k) = joined (fun q => G (ix2 p q)) (fun q => H (ix2 p q)) k := by
  unfold joinedBlock
  by_cases hk : k.val < 64
  · rw [joined_left _ _ _ hk]
    exact concatenate_pair_apply_left (1 : Fin 2) G H concatenates_S2048x64_S2048x4_S2048x68_d1 (ix2 p k) rfl
      (ix2 p ⟨k.val, hk⟩) (fun b => match b with | ⟨0, _⟩ => rfl | ⟨1, _⟩ => rfl)
  · rw [joined_right _ _ _ hk]
    have hk4 : k.val - 64 < 4 := by have := k.isLt; omega
    exact concatenate_pair_apply_right (1 : Fin 2) G H concatenates_S2048x64_S2048x4_S2048x68_d1 (ix2 p k) rfl rfl
      (ix2 p ⟨k.val - 64, hk4⟩) (fun b hb => match b, hb with | ⟨0, _⟩, _ => rfl | ⟨1, _⟩, hb => absurd rfl hb)
      (by show (k.val - 64) + 64 = k.val; omega)

/-- The lane reduction at row `p`: the sum of that row's 68 entries. -/
theorem rowSum (M : FVec Ideal S2048x68 .f32) (p : Fin 2048) :
    multiReduction .add [1] S2048 M 0x00000000#32 reduces_S2048x68_S2048 (.inl rfl) rfl (ix1 p) = ∑ k : Fin 68, M (ix2 p k) := by
  refine (Ideal.multiReduction_add_single M 0x00000000#32 reduces_S2048x68_S2048 (.inl rfl) rfl (ix1 p)).trans ?_
  show ∑ k : Fin 68, M (reduces_S2048x68_S2048.lift (ix1 p) k) = _
  refine Finset.sum_congr rfl fun k _ => ?_
  exact congrArg M (funext fun a => Fin.ext (by
    match a with
    | ⟨0, _⟩ => rfl
    | ⟨1, _⟩ => rfl))

theorem logitBlock_row (C : FVec Ideal S2048x68 .f32) (w : FVec Ideal S1x68 .f32) (β : FVec Ideal S1 .f32) (p : Fin 2048) :
    logitBlock (F := Ideal) C w β (ix2 p (0 : Fin 1)) = logit (fun k => C (ix2 p k)) (fun k => w (ix2 (0 : Fin 1) k)) (β (ix1 (0 : Fin 1))) := by
  unfold logitBlock logit
  rw [addf_apply]
  refine congrArg₂ (· + ·) ?_ ?_
  · refine (shapeCast_apply _ shapeCasts_S2048_S2048x1 (ix2 p (0 : Fin 1)) (ix1 p) (by
      rw [Shape.rowMajor_val_two, Shape.rowMajor_val_one]; show p.val = p.val * 1 + 0; omega)).trans ?_
    refine (rowSum _ p).trans ?_
    refine Finset.sum_congr rfl fun k _ => ?_
    rw [mulf_apply, broadcastTo_1b_ab_apply, shapeCast_self]
  · rw [broadcastTo_1b_ab_apply, shapeCast_a_1a_apply]

/-- THE ROW: the payload at row `p` is the logistic function of the output unit's pre-activation on row `p`. -/
theorem pay2_row (P0 P1 : FVec Ideal S2048x64 .f32) (P2 : FVec Ideal S2048x16 .f32) (P3 : FVec Ideal S16x8 .f32) (P4 : FVec Ideal S8 .f32)
    (P5 : FVec Ideal S8x4 .f32) (P6 : FVec Ideal S4 .f32) (P7 : FVec Ideal S1x68 .f32) (P8 : FVec Ideal S1 .f32) (p : Fin 2048) :
    k0_pay2 (F := Ideal) P0 P1 P2 P3 P4 P5 P6 P7 P8 (ix2 p (0 : Fin 1))
      = Ideal.logistic (logit (joined (fun k => P0 (ix2 p k) * P1 (ix2 p k)) (dense (dense (fun k => P2 (ix2 p k)) P3 P4) P5 P6))
          (fun k => P7 (ix2 (0 : Fin 1) k)) (P8 (ix1 (0 : Fin 1)))) := by
  rw [pay2_eq]
  show Ideal.logistic (logitBlock (F := Ideal) _ P7 P8 (ix2 p (0 : Fin 1))) = _
  rw [logitBlock_row]
  refine congrArg Ideal.logistic (congrArg (fun c => logit c _ _) (funext fun k => ?_))
  rw [joinedBlock_row]
  refine congrArg₂ (fun a b => joined a b k) (funext fun q => ?_) (funext fun q => ?_)
  · rw [mulf_apply, shapeCast_self, shapeCast_self]
  · rw [layer2_row]
    refine congrArg (fun x => dense x P5 P6 q) (funext fun q' => ?_)
    rw [layer1_row, shapeCast_self]

end Cert.KernelRow

end
-- ==== Proof.KernelArray.lean ====
/-
  The kernel's result array after the run, on the extended reals.

  The grid has 8 points.  Point `t` stages rows 2048 t .. 2048 t + 2047 of the two gathered 64-column arrays and of the
  gathered 16-column array, and the six small operands whole; it leaves in its output block, at row `p`, the score of
  row `p` of those blocks, that is the score of row 2048 t + p of the arrays; and it writes that block back to rows
  2048 t .. 2048 t + 2047 of the result.  The 8 blocks tile the 16384 rows (row `r` lies in block `r / 2048`), so after
  the run the result holds, at every row `r`, the score of row `r` of the arrays as the region found them.
-/
import proofs.«428387_j80693845557568_3_alg».proof.Proof.Gen.KernelIdeal.Value
import proofs.«428387_j80693845557568_3_alg».proof.Proof.KernelRow
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelArray

open Idealize.ShloMosaic.ValueIdx Cert.KernelIdeal Cert.KernelIdeal.Gen Cert.KernelIdeal.Value Cert.RowScore Cert.KernelRow

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## What the body leaves at a row of its output block -/

/-- For any nine input blocks, the output block at row `p` is the score of row `p` of the three row-blocked operands. -/
theorem block_row_at (x0 x1 : FVec Ideal S2048x64 .f32) (x2 : FVec Ideal S2048x16 .f32) (x3 : FVec Ideal S16x8 .f32)
    (x4 : FVec Ideal S8 .f32) (x5 : FVec Ideal S8x4 .f32) (x6 : FVec Ideal S4 .f32) (x7 : FVec Ideal S1x68 .f32)
    (x8 : FVec Ideal S1 .f32) (p : Fin 2048) :
    out0_9 (F := Ideal) x0 x1 x2 x3 x4 x5 x6 x7 x8 (ix1 p)
      = score (fun k => x0 (ix2 p k)) (fun k => x1 (ix2 p k)) (fun k => x2 (ix2 p k)) x3 x4 x5 x6
          (fun k => x7 (ix2 (0 : Fin 1) k)) (x8 (ix1 (0 : Fin 1))) := by
  unfold out0_9
  rw [canon9_eq]
  simp only [View.ld_unit_zero (S := S2048x64) hz2, View.ld_unit_zero (S := S2048x16) hz2, View.ld_unit_zero (S := S16x8) hz2,
    View.ld_unit_zero (S := S8) hz1, View.ld_unit_zero (S := S8x4) hz2, View.ld_unit_zero (S := S4) hz1,
    View.ld_unit_zero (S := S1x68) hz2, View.ld_unit_zero (S := S1) hz1]
  show (k0_pay2 (F := Ideal) x0 x1 x2 x3 x4 x5 x6 x7 x8 (ix9_0 (ix1 p))) * Ideal.ofBits .f32 0x40800000#32 + Ideal.ofBits .f32 0x3F800000#32 = _
  have e : ix9_0 (ix1 p) = ix2 p (0 : Fin 1) := funext fun a => Fin.ext (by
    match a with
    | ⟨0, _⟩ => rfl
    | ⟨1, _⟩ => rfl)
  rw [e, pay2_row]
  unfold score
  rw [rating_eq]

/-- The same at any index `y` of the block, whose one coordinate is the row. -/
theorem block_row (x0 x1 : FVec Ideal S2048x64 .f32) (x2 : FVec Ideal S2048x16 .f32) (x3 : FVec Ideal S16x8 .f32)
    (x4 : FVec Ideal S8 .f32) (x5 : FVec Ideal S8x4 .f32) (x6 : FVec Ideal S4 .f32) (x7 : FVec Ideal S1x68 .f32)
    (x8 : FVec Ideal S1 .f32) (y : S2048.Idx) :
    out0_9 (F := Ideal) x0 x1 x2 x3 x4 x5 x6 x7 x8 y
      = score (fun k => x0 (ix2 (y 0 : Fin 2048) k)) (fun k => x1 (ix2 (y 0 : Fin 2048) k)) (fun k => x2 (ix2 (y 0 : Fin 2048) k)) x3 x4 x5 x6
          (fun k => x7 (ix2 (0 : Fin 1) k)) (x8 (ix1 (0 : Fin 1))) := by
  obtain ⟨p, rfl⟩ : ∃ p : Fin 2048, y = ix1 p := ⟨y 0, eq_ix1 y⟩
  exact block_row_at x0 x1 x2 x3 x4 x5 x6 x7 x8 p

/-- The score depends on its nine data only. -/
theorem score_congr {g₁ g₂ h₁ h₂ : Fin 64 → EReal} {x₁ x₂ : Fin 16 → EReal}
    {W1 W1' : (⟨2, ![16, 8]⟩ : Shape).Idx → EReal} {b1 b1' : (⟨1, ![8]⟩ : Shape).Idx → EReal}
    {W2 W2' : (⟨2, ![8, 4]⟩ : Shape).Idx → EReal} {b2 b2' : (⟨1, ![4]⟩ : Shape).Idx → EReal}
    {w w' : Fin 68 → EReal} {β β' : EReal}
    (eg : g₁ = g₂) (eh : h₁ = h₂) (ex : x₁ = x₂) (eW1 : W1 = W1') (eb1 : b1 = b1') (eW2 : W2 = W2') (eb2 : b2 = b2')
    (ew : w = w') (eβ : β = β') :
    score g₁ h₁ x₁ W1 b1 W2 b2 w β = score g₂ h₂ x₂ W1' b1' W2' b2' w' β' := by
  subst eg eh ex eW1 eb1 eW2 eb2 ew eβ
  rfl

/-! ## The printed index maps over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) = t.val :=
  (by decide +kernel : ∀ t : Fin grid0.N, _)

/-! ## Each window's block as rows of its array -/

theorem blk0_apply (c : Dev nD) (t : Fin cfg0.N) (p : Fin 2048) (k : Fin 64) (r : Fin 16384) (hr : r.val = 2048 * t.val + p.val) :
    (iblk m c 0 t : FVec Ideal S2048x64 .f32) (ix2 p k) = (V m c main_v6 : FVec Ideal S16384x64 .f32) (ix2 r k) := by
  obtain ⟨e0, e1, -⟩ := idx_facts t
  unfold iblk
  rw [View.read_apply]
  refine congrArg (V m c main_v6 : FVec Ideal S16384x64 .f32) (funext fun a => Fin.ext ?_)
  match a with
  | ⟨0, _⟩ => show win0_0.index t (0 : Fin 2) * 2048 + 1 * p.val = r.val; rw [e0, hr]; omega
  | ⟨1, _⟩ => show win0_0.index t (1 : Fin 2) * 64 + 1 * k.val = k.val; rw [e1]; omega

theorem blk1_apply (c : Dev nD) (t : Fin cfg0.N) (p : Fin 2048) (k : Fin 64) (r : Fin 16384) (hr : r.val = 2048 * t.val + p.val) :
    (iblk m c 1 t : FVec Ideal S2048x64 .f32) (ix2 p k) = (V m c main_v13 : FVec Ideal S16384x64 .f32) (ix2 r k) := by
  obtain ⟨-, -, e0, e1, -⟩ := idx_facts t
  unfold iblk
  rw [View.read_apply]
  refine congrArg (V m c main_v13 : FVec Ideal S16384x64 .f32) (funext fun a => Fin.ext ?_)
  match a with
  | ⟨0, _⟩ => show win0_1.index t (0 : Fin 2) * 2048 + 1 * p.val = r.val; rw [e0, hr]; omega
  | ⟨1, _⟩ => show win0_1.index t (1 : Fin 2) * 64 + 1 * k.val = k.val; rw [e1]; omega

theorem blk2_apply (c : Dev nD) (t : Fin cfg0.N) (p : Fin 2048) (k : Fin 16) (r : Fin 16384) (hr : r.val = 2048 * t.val + p.val) :
    (iblk m c 2 t : FVec Ideal S2048x16 .f32) (ix2 p k) = (V m c main_v28 : FVec Ideal S16384x16 .f32) (ix2 r k) := by
  obtain ⟨-, -, -, -, e0, e1, -⟩ := idx_facts t
  unfold iblk
  rw [View.read_apply]
  refine congrArg (V m c main_v28 : FVec Ideal S16384x16 .f32) (funext fun a => Fin.ext ?_)
  match a with
  | ⟨0, _⟩ => show win0_2.index t (0 : Fin 2) * 2048 + 1 * p.val = r.val; rw [e0, hr]; omega
  | ⟨1, _⟩ => show win0_2.index t (1 : Fin 2) * 16 + 1 * k.val = k.val; rw [e1]; omega

theorem blk3_eq (c : Dev nD) (t : Fin cfg0.N) :
    (iblk m c 3 t : FVec Ideal S16x8 .f32) = (V m c main_arg6 : FVec Ideal S16x8 .f32) := by
  obtain ⟨-, -, -, -, -, -, e0, e1, -⟩ := idx_facts t
  funext y
  unfold iblk
  rw [View.read_apply]
  refine congrArg (V m c main_arg6 : FVec Ideal S16x8 .f32) (funext fun a => Fin.ext ?_)
  match a with
  | ⟨0, _⟩ => show win0_3.index t (0 : Fin 2) * 16 + 1 * (y 0).val = (y 0).val; rw [e0]; omega
  | ⟨1, _⟩ => show win0_3.index t (1 : Fin 2) * 8 + 1 * (y 1).val = (y 1).val; rw [e1]; omega

theorem blk4_eq (c : Dev nD) (t : Fin cfg0.N) :
    (iblk m c 4 t : FVec Ideal S8 .f32) = (V m c main_arg7 : FVec Ideal S8 .f32) := by
  obtain ⟨-, -, -, -, -, -, -, -, e0, -⟩ := idx_facts t
  funext y
  unfold iblk
  rw [View.read_apply]
  refine congrArg (V m c main_arg7 : FVec Ideal S8 .f32) (funext fun a => Fin.ext ?_)
  match a with
  | ⟨0, _⟩ => show win0_4.index t (0 : Fin 1) * 8 + 1 * (y 0).val = (y 0).val; rw [e0]; omega

theorem blk5_eq (c : Dev nD) (t : Fin cfg0.N) :
    (iblk m c 5 t : FVec Ideal S8x4 .f32) = (V m c main_arg8 : FVec Ideal S8x4 .f32) := by
  obtain ⟨-, -, -, -, -, -, -, -, -, e0, e1, -⟩ := idx_facts t
  funext y
  unfold iblk
  rw [View.read_apply]
  refine congrArg (V m c main_arg8 : FVec Ideal S8x4 .f32) (funext fun a => Fin.ext ?_)
  match a with
  | ⟨0, _⟩ => show win0_5.index t (0 : Fin 2) * 8 + 1 * (y 0).val = (y 0).val; rw [e0]; omega
  | ⟨1, _⟩ => show win0_5.index t (1 : Fin 2) * 4 + 1 * (y 1).val = (y 1).val; rw [e1]; omega

theorem blk6_eq (c : Dev nD) (t : Fin cfg0.N) :
    (iblk m c 6 t : FVec Ideal S4 .f32) = (V m c main_arg9 : FVec Ideal S4 .f32) := by
  obtain ⟨-, -, -, -, -, -, -, -, -, -, -, e0, -⟩ := idx_facts t
  funext y
  unfold iblk
  rw [View.read_apply]
  refine congrArg (V m c main_arg9 : FVec Ideal S4 .f32) (funext fun a => Fin.ext ?_)
  match a with
  | ⟨0, _⟩ => show win0_6.index t (0 : Fin 1) * 4 + 1 * (y 0).val = (y 0).val; rw [e0]; omega

theorem blk7_eq (c : Dev nD) (t : Fin cfg0.N) :
    (iblk m c 7 t : FVec Ideal S1x68 .f32) = (V m c main_v29 : FVec Ideal S1x68 .f32) := by
  obtain ⟨-, -, -, -, -, -, -, -, -, -, -, -, e0, e1, -⟩ := idx_facts t
  funext y
  unfold iblk
  rw [View.read_apply]
  refine congrArg (V m c main_v29 : FVec Ideal S1x68 .f32) (funext fun a => Fin.ext ?_)
  match a with
  | ⟨0, _⟩ => show win0_7.index t (0 : Fin 2) * 1 + 1 * (y 0).val = (y 0).val; rw [e0]; omega
  | ⟨1, _⟩ => show win0_7.index t (1 : Fin 2) * 68 + 1 * (y 1).val = (y 1).val; rw [e1]; omega

theorem blk8_eq (c : Dev nD) (t : Fin cfg0.N) :
    (iblk m c 8 t : FVec Ideal S1 .f32) = (V m c main_arg11 : FVec Ideal S1 .f32) := by
  obtain ⟨-, -, -, -, -, -, -, -, -, -, -, -, -, -, e0, -⟩ := idx_facts t
  funext y
  unfold iblk
  rw [View.read_apply]
  refine congrArg (V m c main_arg11 : FVec Ideal S1 .f32) (funext fun a => Fin.ext ?_)
  match a with
  | ⟨0, _⟩ => show win0_8.index t (0 : Fin 1) * 1 + 1 * (y 0).val = (y 0).val; rw [e0]; omega

/-! ## The result array -/

/-- What the result array holds after the run: at row `i`, the score of row `i` of the arrays as the region found them. -/
def result (c : Dev nD) : FVec Ideal S16384 .f32 := fun i =>
  score (fun k => (V m c main_v6 : FVec Ideal S16384x64 .f32) (ix2 (i 0) k))
    (fun k => (V m c main_v13 : FVec Ideal S16384x64 .f32) (ix2 (i 0) k))
    (fun k => (V m c main_v28 : FVec Ideal S16384x16 .f32) (ix2 (i 0) k))
    (V m c main_arg6 : FVec Ideal S16x8 .f32) (V m c main_arg7 : FVec Ideal S8 .f32)
    (V m c main_arg8 : FVec Ideal S8x4 .f32) (V m c main_arg9 : FVec Ideal S4 .f32)
    (fun k => (V m c main_v29 : FVec Ideal S1x68 .f32) (ix2 (0 : Fin 1) k))
    ((V m c main_arg11 : FVec Ideal S1 .f32) (ix1 (0 : Fin 1)))

/-- WHAT POINT `t` WRITES BACK is block `t` of `result`. -/
theorem flushed_eq (c : Dev nD) (t : Fin cfg0.N) :
    (dats m 0 c).flushed 9 t = ((cfg0.win 9).blk t).view.read (Elt Ideal) (result m c) := by
  rw [flushed9]
  obtain ⟨-, -, -, -, -, -, -, -, -, -, -, -, -, -, -, e9⟩ := idx_facts t
  funext j
  have hr : ((((cfg0.win 9).blk t).view.emb j : S16384.Idx) 0).val = 2048 * t.val + ((j : S2048.Idx) 0 : Fin 2048).val := by
    show win0_9.index t (0 : Fin 1) * 2048 + 1 * ((j : S2048.Idx) 0).val = _
    rw [e9]; omega
  refine (block_row (iblk m c 0 t) (iblk m c 1 t) (iblk m c 2 t) (iblk m c 3 t) (iblk m c 4 t) (iblk m c 5 t)
    (iblk m c 6 t) (iblk m c 7 t) (iblk m c 8 t) j).trans ?_
  show _ = result m c (((cfg0.win 9).blk t).view.emb j)
  exact score_congr
    (funext fun k => blk0_apply m c t ((j : S2048.Idx) 0 : Fin 2048) k ((((cfg0.win 9).blk t).view.emb j : S16384.Idx) 0 : Fin 16384) hr)
    (funext fun k => blk1_apply m c t ((j : S2048.Idx) 0 : Fin 2048) k ((((cfg0.win 9).blk t).view.emb j : S16384.Idx) 0 : Fin 16384) hr)
    (funext fun k => blk2_apply m c t ((j : S2048.Idx) 0 : Fin 2048) k ((((cfg0.win 9).blk t).view.emb j : S16384.Idx) 0 : Fin 16384) hr)
    (blk3_eq m c t) (blk4_eq m c t) (blk5_eq m c t) (blk6_eq m c t)
    (congrArg (fun (v : FVec Ideal S1x68 .f32) => fun k : Fin 68 => v (ix2 (0 : Fin 1) k)) (blk7_eq m c t))
    (congrFun (blk8_eq m c t) (ix1 (0 : Fin 1)))

/-- An index of the result is in point `t`'s block iff its row is among that block's 2048. -/
theorem mem_blk9 (t : Fin cfg0.N) (i : S16384.Idx) :
    i ∈ ((cfg0.win 9).blk t).view.set ↔ ∀ a : Fin 1, win0_9.index t a * S2048.size a ≤ (i a).val ∧ (i a).val < win0_9.index t a * S2048.size a + S2048.size a := by
  show i ∈ ((View.whole main_v30).slice (win0_9.rect t)).set ↔ _
  rw [View.set_slice_whole, Rect.mem_set_unit]
  exact Iff.rfl

/-- THE ARRAY after the run is `result`: every row lies in the block of the point `row / 2048`. -/
theorem final (c : Dev nD) : (dats m 0 c).arrAt 9 cfg0.N = result m c :=
  (dats m 0 c).arrAt_eq_of_cover 9 (result m c) (fun t _ => flushed_eq m c t) fun i => by
    have hi : ((i : S16384.Idx) 0).val < 16384 := ((i : S16384.Idx) 0).isLt
    have hN : grid0.N = 8 := N_0
    have ht : ((i : S16384.Idx) 0).val / 2048 < grid0.N := by rw [hN]; omega
    refine ⟨⟨((i : S16384.Idx) 0).val / 2048, ht⟩, flush0_9 _, ?_⟩
    rw [mem_blk9]
    intro a
    obtain ⟨-, -, -, -, -, -, -, -, -, -, -, -, -, -, -, e9⟩ := idx_facts ⟨((i : S16384.Idx) 0).val / 2048, ht⟩
    match a with
    | ⟨0, _⟩ =>
      show win0_9.index ⟨((i : S16384.Idx) 0).val / 2048, ht⟩ (0 : Fin 1) * 2048 ≤ ((i : S16384.Idx) 0).val
        ∧ ((i : S16384.Idx) 0).val < win0_9.index ⟨((i : S16384.Idx) 0).val / 2048, ht⟩ (0 : Fin 1) * 2048 + 2048
      rw [e9]
      show ((i : S16384.Idx) 0).val / 2048 * 2048 ≤ ((i : S16384.Idx) 0).val ∧ ((i : S16384.Idx) 0).val < ((i : S16384.Idx) 0).val / 2048 * 2048 + 2048
      omega

/-! ## The run, read -/

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KernelArray

end
-- ==== Proof.ReferenceRow.lean ====
/-
  The reference's result at one row, on the extended reals.

  The reference computes on whole arrays of 16384 rows, one operation at a time: the product of the two gathered
  64-column arrays, the two dense layers of the gathered 16-column array, their concatenation along the row, the product
  with the 68 x 1 output weights, the bias, the logistic function spelt as the quotient 1 / (1 + e^(-z)), times 4, plus 1.
  Every one of these acts row by row, so the result at row `r` is `RowScore.score` of row `r` of the three gathered
  arrays.  The gathers themselves are left as they are: which table row they fetch plays no part here.
-/
import proofs.«428387_j80693845557568_3_alg».proof.Proof.Gen.ReferenceIdeal.Read
import proofs.«428387_j80693845557568_3_alg».proof.Proof.RowScore
import Idealize.ShloMosaic.Lib.ValueIdx
import Idealize.ShloMosaic.Lib.Pipeline.Value

noncomputable section

namespace Cert.ReferenceRow

open Idealize.ShloMosaic Idealize.ShloMosaic.ValueIdx Cert.ReferenceIdeal Cert.ReferenceIdeal.Gen Cert.ReferenceIdeal.Read Cert.RowScore

variable (x0 x1 : (⟨S16384, .i32⟩ : BufTy).Contents (Elt Ideal))
  (x2 : (⟨S1000000x64, .f32⟩ : BufTy).Contents (Elt Ideal)) (x3 : (⟨S100000x64, .f32⟩ : BufTy).Contents (Elt Ideal))
  (x4 : (⟨S1000000x8, .f32⟩ : BufTy).Contents (Elt Ideal)) (x5 : (⟨S100000x8, .f32⟩ : BufTy).Contents (Elt Ideal))
  (x6 : (⟨S16x8, .f32⟩ : BufTy).Contents (Elt Ideal)) (x7 : (⟨S8, .f32⟩ : BufTy).Contents (Elt Ideal))
  (x8 : (⟨S8x4, .f32⟩ : BufTy).Contents (Elt Ideal)) (x9 : (⟨S4, .f32⟩ : BufTy).Contents (Elt Ideal))
  (x10 : (⟨S68x1, .f32⟩ : BufTy).Contents (Elt Ideal)) (x11 : (⟨S1, .f32⟩ : BufTy).Contents (Elt Ideal))

/-- The first dense layer at `(r, j)`: row `r` of the gathered 16-column array through `(W1, b1)`. -/
theorem hidden1_row (r : Fin 16384) (j : Fin 8) :
    val_main_v34 (F := Ideal) x0 x1 x4 x5 x6 x7 (ix2 r j)
      = dense (fun k => val_main_v29 (F := Ideal) x0 x1 x4 x5 (ix2 r k)) x6 x7 j := by
  rw [val_main_v34_apply, val_main_v33_apply, val_main_v30_apply, val_main_v32_apply, val_main_v31_apply,
    val_main_call0_v0_apply, val_main_call0_cst_apply]
  unfold dense
  have el : ∀ k : Fin 16, lidx_main_v30 (ix2 r j) k = ix2 r k := fun k => funext fun a => Fin.ext (by
    match a with
    | ⟨0, _⟩ => rfl
    | ⟨1, _⟩ => rfl)
  have er : ∀ k : Fin 16, ridx_main_v30 (ix2 r j) k = ix2 k j := fun k => funext fun a => Fin.ext (by
    match a with
    | ⟨0, _⟩ => rfl
    | ⟨1, _⟩ => rfl)
  have eb : idx_main_v31 (idx_main_v32 (ix2 r j)) = ix1 j := funext fun a => Fin.ext (by
    match a with
    | ⟨0, _⟩ => rfl)
  simp only [el, er, eb]
  rfl

/-- The second dense layer at `(r, j)`. -/
theorem hidden2_row (r : Fin 16384) (j : Fin 4) :
    val_main_v39 (F := Ideal) x0 x1 x4 x5 x6 x7 x8 x9 (ix2 r j)
      = dense (fun k => val_main_v34 (F := Ideal) x0 x1 x4 x5 x6 x7 (ix2 r k)) x8 x9 j := by
  rw [val_main_v39_apply, val_main_v38_apply, val_main_v35_apply, val_main_v37_apply, val_main_v36_apply,
    val_main_call1_v0_apply, val_main_call1_cst_apply]
  unfold dense
  have el : ∀ k : Fin 8, lidx_main_v35 (ix2 r j) k = ix2 r k := fun k => funext fun a => Fin.ext (by
    match a with
    | ⟨0, _⟩ => rfl
    | ⟨1, _⟩ => rfl)
  have er : ∀ k : Fin 8, ridx_main_v35 (ix2 r j) k = ix2 k j := fun k => funext fun a => Fin.ext (by
    match a with
    | ⟨0, _⟩ => rfl
    | ⟨1, _⟩ => rfl)
  have eb : idx_main_v36 (idx_main_v37 (ix2 r j)) = ix1 j := funext fun a => Fin.ext (by
    match a with
    | ⟨0, _⟩ => rfl)
  simp only [el, er, eb]
  rfl

/-- The concatenation at `(r, k)`: the factorisation branch's product for `k < 64`, the perceptron's output after. -/
theorem joined_row (r : Fin 16384) (k : Fin 68) :
    val_main_v40 (F := Ideal) x0 x1 x2 x3 x4 x5 x6 x7 x8 x9 (ix2 r k)
      = joined (fun q => val_main_v14 (F := Ideal) x0 x1 x2 x3 (ix2 r q))
          (fun q => val_main_v39 (F := Ideal) x0 x1 x4 x5 x6 x7 x8 x9 (ix2 r q)) k := by
  unfold val_main_v40
  by_cases hk : k.val < 64
  · rw [joined_left _ _ _ hk]
    exact concatenate_pair_apply_left (1 : Fin 2) (val_main_v14 (F := Ideal) x0 x1 x2 x3)
      (val_main_v39 (F := Ideal) x0 x1 x4 x5 x6 x7 x8 x9) concatenates_S16384x64_S16384x4_S16384x68_d1 (ix2 r k) rfl
      (ix2 r ⟨k.val, hk⟩) (fun b => match b with | ⟨0, _⟩ => rfl | ⟨1, _⟩ => rfl)
  · rw [joined_right _ _ _ hk]
    have hk4 : k.val - 64 < 4 := by have := k.isLt; omega
    exact concatenate_pair_apply_right (1 : Fin 2) (val_main_v14 (F := Ideal) x0 x1 x2 x3)
      (val_main_v39 (F := Ideal) x0 x1 x4 x5 x6 x7 x8 x9) concatenates_S16384x64_S16384x4_S16384x68_d1 (ix2 r k) rfl rfl
      (ix2 r ⟨k.val - 64, hk4⟩) (fun b hb => match b, hb with | ⟨0, _⟩, _ => rfl | ⟨1, _⟩, hb => absurd rfl hb)
      (by show (k.val - 64) + 64 = k.val; omega)

/-- The output unit before squashing, at row `r`. -/
theorem logit_row (r : Fin 16384) :
    val_main_v44 (F := Ideal) x0 x1 x2 x3 x4 x5 x6 x7 x8 x9 x10 x11 (ix2 r (0 : Fin 1))
      = logit (fun k => val_main_v40 (F := Ideal) x0 x1 x2 x3 x4 x5 x6 x7 x8 x9 (ix2 r k))
          (fun k => x10 (ix2 k (0 : Fin 1))) (x11 (ix1 (0 : Fin 1))) := by
  rw [val_main_v44_apply, val_main_v41_apply, val_main_v43_apply, val_main_v42_apply]
  unfold logit
  have el : ∀ k : Fin 68, lidx_main_v41 (ix2 r (0 : Fin 1)) k = ix2 r k := fun k => funext fun a => Fin.ext (by
    match a with
    | ⟨0, _⟩ => rfl
    | ⟨1, _⟩ => rfl)
  have er : ∀ k : Fin 68, ridx_main_v41 (ix2 r (0 : Fin 1)) k = ix2 k (0 : Fin 1) := fun k => funext fun a => Fin.ext (by
    match a with
    | ⟨0, _⟩ => rfl
    | ⟨1, _⟩ => rfl)
  have eb : idx_main_v42 (idx_main_v43 (ix2 r (0 : Fin 1))) = ix1 (0 : Fin 1) := funext fun a => Fin.ext (by
    match a with
    | ⟨0, _⟩ => rfl)
  simp only [el, er, eb]
  rfl

/-- The squashing at row `r`: the host's negate, exponential, add and divide are `rating`'s quotient. -/
theorem rating_row (r : Fin 16384) :
    val_main_v55 (F := Ideal) x0 x1 x2 x3 x4 x5 x6 x7 x8 x9 x10 x11 (ix1 r)
      = rating (val_main_v44 (F := Ideal) x0 x1 x2 x3 x4 x5 x6 x7 x8 x9 x10 x11 (ix2 r (0 : Fin 1))) := by
  rw [val_main_v55_apply, val_main_v53_apply, val_main_v51_apply, val_main_v50_apply, val_main_v49_apply,
    val_main_cst_7_apply, val_main_v48_apply, val_main_v47_apply, val_main_cst_apply, val_main_v46_apply,
    val_main_v45_apply, val_main_v52_apply, val_main_cst_8_apply, val_main_v54_apply, val_main_cst_9_apply]
  have e : idx_main_v51 (ix1 r) = ix2 r (0 : Fin 1) := funext fun a => Fin.ext (by
    match a with
    | ⟨0, _⟩ => exact Nat.div_one _
    | ⟨1, _⟩ => rfl)
  rw [e]
  unfold rating
  rfl

/-- THE ROW: the reference's result at row `r` is the score of row `r` of the gathered arrays. -/
theorem result_row (r : Fin 16384) :
    val_main_v55 (F := Ideal) x0 x1 x2 x3 x4 x5 x6 x7 x8 x9 x10 x11 (ix1 r)
      = score (fun k => val_main_v6 (F := Ideal) x0 x2 (ix2 r k)) (fun k => val_main_v13 (F := Ideal) x1 x3 (ix2 r k))
          (fun k => val_main_v29 (F := Ideal) x0 x1 x4 x5 (ix2 r k)) x6 x7 x8 x9
          (fun k => x10 (ix2 k (0 : Fin 1))) (x11 (ix1 (0 : Fin 1))) := by
  rw [rating_row, logit_row]
  unfold score
  refine congrArg rating (congrArg (fun c => logit c _ _) (funext fun k => ?_))
  rw [joined_row]
  refine congrArg₂ (fun a b => joined a b k) (funext fun q => ?_) (funext fun q => ?_)
  · rfl
  · rw [hidden2_row]
    exact congrArg (fun x => dense x x8 x9 q) (funext fun q' => hidden1_row x0 x1 x4 x5 x6 x7 r q')

end Cert.ReferenceRow

end
-- ==== Proof.StagedArrays.lean ====
/-
  The arrays the kernel's region is launched on are the reference's own intermediate arrays.

  Before its one region the kernel program gathers, on the host, rows of the four embedding tables at the ids (a
  negative id first wrapped by the table's length), joins the two 8-column gathers along the row, and transposes the
  68 x 1 output weights to a row.  The reference's first operations are the same gathers and the same join of the same
  arguments.  So the arrays the region finds are the reference's stages, term for term, and the transposed weights at
  (0, k) are the weights at (k, 0).
-/
import proofs.«428387_j80693845557568_3_alg».proof.Proof.Gen.KernelIdeal.Frame
import proofs.«428387_j80693845557568_3_alg».proof.Proof.Gen.ReferenceIdeal.Read
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.StableHlo

namespace Cert.StagedArrays

open Idealize.ShloMosaic.ValueIdx Cert.KernelIdeal Cert.KernelIdeal.Gen

variable (m : (ℓ : Loc nD τ sig) → Buf (Elt Ideal) ℓ)

/-- The gathered rows of the first 64-column table. -/
theorem users64 (c : Dev nD) :
    (V m c main_v6 : FVec Ideal S16384x64 .f32)
      = Cert.ReferenceIdeal.Read.val_main_v6 (F := Ideal) (m ((c : Thread nD τ).loc main_arg0)) (m ((c : Thread nD τ).loc main_arg2)) := by
  dsimp only [V, hostOps0]
  after_results
  rfl

set_option maxHeartbeats 4000000 in
/-- The gathered rows of the second 64-column table. -/
theorem items64 (c : Dev nD) :
    (V m c main_v13 : FVec Ideal S16384x64 .f32)
      = Cert.ReferenceIdeal.Read.val_main_v13 (F := Ideal) (m ((c : Thread nD τ).loc main_arg1)) (m ((c : Thread nD τ).loc main_arg3)) := by
  dsimp only [V, hostOps0]
  after_results
  rfl

set_option maxHeartbeats 8000000 in
/-- The two gathered 8-column arrays joined along the row. -/
theorem pair16 (c : Dev nD) :
    (V m c main_v28 : FVec Ideal S16384x16 .f32)
      = Cert.ReferenceIdeal.Read.val_main_v29 (F := Ideal) (m ((c : Thread nD τ).loc main_arg0)) (m ((c : Thread nD τ).loc main_arg1))
          (m ((c : Thread nD τ).loc main_arg4)) (m ((c : Thread nD τ).loc main_arg5)) := by
  dsimp only [V, hostOps0]
  after_results
  rfl

/-- The output weights as a row: entry `(0, k)` of the transpose is entry `(k, 0)` of the argument. -/
theorem weightRow (c : Dev nD) (k : Fin 68) :
    (V m c main_v29 : FVec Ideal S1x68 .f32) (ix2 (0 : Fin 1) k)
      = (m ((c : Thread nD τ).loc main_arg10) : FVec Ideal S68x1 .f32) (ix2 k (0 : Fin 1)) := by
  have e : (V m c main_v29 : FVec Ideal S1x68 .f32)
      = transpose S1x68 [1, 0] (m ((c : Thread nD τ).loc main_arg10) : FVec Ideal S68x1 .f32) transposes_S68x1_S1x68_1_0 := by
    dsimp only [V, hostOps0]
    after_results
  rw [e]
  exact transpose_ix2_apply _ _ (0 : Fin 1) k

end Cert.StagedArrays

end
-- ==== Proof.lean ====
/-
  The two-branch recommender score: the blocked kernel against the whole-array reference, over the extended reals.

  Both programs gather rows of four embedding tables on the host with the same operations.  From the gathered rows
  the score of one (user, item) pair is
      4 * sigma( sum_k c_k * w_k + beta ) + 1,   c = (g .* g') ++ relu(W2^T relu(W1^T x + b1) + b2)
  (Proof/RowScore.lean).  The kernel computes it 2048 rows at a time: two matrix products with operands narrowed to a
  shorter float format (the identity on extended reals), the output unit as a product with the weight row summed along
  the row, and the logistic function as one operation (Proof/KernelRow.lean); its 8 blocks tile the 16384 rows
  (Proof/KernelArray.lean).  The reference computes it on whole arrays, the output unit as a product with the 68 x 1
  weight column and the logistic function spelt 1 / (1 + e^(-z)) (Proof/ReferenceRow.lean).  Row by row these are the
  same sums of the same products in the same order, so no law of arithmetic beyond the definition of the logistic
  function is used, and the inputs' finiteness is never needed.  The arrays the kernel's region reads are the
  reference's own first stages (Proof/StagedArrays.lean).
-/
import proofs.«428387_j80693845557568_3_alg».proof.Defs
import proofs.«428387_j80693845557568_3_alg».proof.Proof.Gen.Kernel
import proofs.«428387_j80693845557568_3_alg».proof.Proof.Gen.Kernel.Skeleton
import proofs.«428387_j80693845557568_3_alg».proof.Proof.Gen.Kernel.Launch
import proofs.«428387_j80693845557568_3_alg».proof.Proof.Gen.Kernel.Points
import proofs.«428387_j80693845557568_3_alg».proof.Proof.Gen.Kernel.Frame
import proofs.«428387_j80693845557568_3_alg».proof.Proof.Gen.KernelIdeal
import proofs.«428387_j80693845557568_3_alg».proof.Proof.Gen.KernelIdeal.Skeleton
import proofs.«428387_j80693845557568_3_alg».proof.Proof.Gen.KernelIdeal.Launch
import proofs.«428387_j80693845557568_3_alg».proof.Proof.Gen.KernelIdeal.Points
import proofs.«428387_j80693845557568_3_alg».proof.Proof.Gen.KernelIdeal.Frame
import proofs.«428387_j80693845557568_3_alg».proof.Proof.Gen.ReferenceIdeal
import proofs.«428387_j80693845557568_3_alg».proof.Proof.Gen.Pre_finite_inputs
import proofs.«428387_j80693845557568_3_alg».proof.Proof.Gen.KernelIdeal.Value
import proofs.«428387_j80693845557568_3_alg».proof.Proof.Gen.ReferenceIdeal.Run
import proofs.«428387_j80693845557568_3_alg».proof.Proof.Gen.ReferenceIdeal.Read
import proofs.«428387_j80693845557568_3_alg».proof.Proof.KernelArray
import proofs.«428387_j80693845557568_3_alg».proof.Proof.ReferenceRow
import proofs.«428387_j80693845557568_3_alg».proof.Proof.StagedArrays
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array and the reference's, from arguments that agree, hold the same score at every row. -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v55_eq, a0, a1, a2, a3, a4, a5, a6, a7, a8, a9, a10, a11]
  funext i
  obtain ⟨r, rfl⟩ : ∃ r : Fin 16384, i = ix1 r := ⟨i 0, eq_ix1 i⟩
  rw [Cert.ReferenceRow.result_row]
  show _ = Cert.KernelArray.result m c (ix1 r)
  exact Cert.KernelArray.score_congr
    (funext fun k => (congrFun (Cert.StagedArrays.users64 m c) (ix2 r k)).symm)
    (funext fun k => (congrFun (Cert.StagedArrays.items64 m c) (ix2 r k)).symm)
    (funext fun k => (congrFun (Cert.StagedArrays.pair16 m c) (ix2 r k)).symm)
    (Cert.KernelIdeal.Gen.V_main_arg6 m c).symm (Cert.KernelIdeal.Gen.V_main_arg7 m c).symm
    (Cert.KernelIdeal.Gen.V_main_arg8 m c).symm (Cert.KernelIdeal.Gen.V_main_arg9 m c).symm
    (funext fun k => (Cert.StagedArrays.weightRow m c k).symm)
    (congrFun (Cert.KernelIdeal.Gen.V_main_arg11 m c) (ix1 (0 : Fin 1))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
